-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x16x256 : Shape := ⟨3, ![65536, 16, 256]⟩
abbrev S256x256 : Shape := ⟨2, ![256, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x16x256 : S_.BroadcastsInDim S65536x16x256 (![] : Fin 0 → Fin S65536x16x256.rank)
  reducesTo_S65536x16x256_S_d0_1_2 : S65536x16x256.ReducesTo [0, 1, 2] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S65536x256 .f32) (main_arg1 : FVec F S65536x16x256 .f32) (main_arg2 : FVec F S256x256 .f32) (main_arg3 : FVec F S256x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x16x256 .f32 := Host.absf main_arg1
  let main_cst_0 : FVec F S_ .f32 := constant S_ .f32 0x7F800000#32
  let main_v5 : FVec F S65536x16x256 .f32 := broadcastInDim S65536x16x256 ![] bcast_S_S65536x16x256 main_cst_0
  let main_v6 : IVec S65536x16x256 1 := cmpf .olt main_v4 main_v5
  let main_c_1 : IVec S_ 1 := constantI S_ 1 1#1
  let main_v7 : IVec S_ 1 := (fun x v => Host.reduce IntOp.andi x v reducesTo_S65536x16x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S65536x256 : Shape := ⟨2, ![65536, 256]⟩
abbrev S65536x16x256 : Shape := ⟨3, ![65536, 16, 256]⟩
abbrev S256x256 : Shape := ⟨2, ![256, 256]⟩
abbrev S65536x512 : Shape := ⟨2, ![65536, 512]⟩
abbrev S512x256 : Shape := ⟨2, ![512, 256]⟩
abbrev S512x16x256 : Shape := ⟨3, ![512, 16, 256]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S65536x16x256, .f32⟩
  | .hbm, ⟨2, _⟩ => ⟨S256x256, .f32⟩
  | .hbm, ⟨3, _⟩ => ⟨S256x256, .f32⟩
  | .hbm, ⟨4, _⟩ => ⟨S65536x512, .f32⟩
  | .local _ .vmem, ⟨0, _⟩ => ⟨S512x256, .f32⟩
  | .local _ .vmem, ⟨1, _⟩ => ⟨S512x256, .f32⟩
  | .local _ .vmem, ⟨2, _⟩ => ⟨S512x16x256, .f32⟩
  | .local _ .vmem, ⟨3, _⟩ => ⟨S512x16x256, .f32⟩
  | .local _ .vmem, ⟨4, _⟩ => ⟨S256x256, .f32⟩
  | .local _ .vmem, ⟨5, _⟩ => ⟨S256x256, .f32⟩
  | .local _ .vmem, ⟨6, _⟩ => ⟨S512x512, .f32⟩
  | .local _ .vmem, ⟨7, _⟩ => ⟨S512x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S512x256_S512x256_0_0 : ∀ a, (![0, 0] : Fin 2 → Nat) a + S512x256.size a ≤ S512x256.size a
  h_S512x256 : 0 < S512x256.numel
  inb_S512x16x256_S512x16x256_0_0_0 : ∀ a, (![0, 0, 0] : Fin 3 → Nat) a + S512x16x256.size a ≤ S512x16x256.size a
  h_S512x16x256 : 0 < S512x16x256.numel
  reduces_S512x16x256_S512x256 : S512x16x256.Reduces [1] S512x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S512x512_S512x256_0_0 : ∀ a, (![0, 0] : Fin 2 → Nat) a + S512x256.size a ≤ S512x512.size a
  inb_S512x512_S512x256_0_256 : ∀ a, (![0, 256] : Fin 2 → Nat) a + S512x256.size a ≤ S512x512.size a
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16x256.size a ≤ S65536x16x256.size a
  hwx0_1 : ∀ i : grid0.Coords, EltTy.bits .f32 = 32 ∨ (Rect.block (s := S65536x16x256) S512x16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S65536x512.size a
  hwx0_4 : ∀ i : grid0.Coords, EltTy.bits .f32 = 32 ∨ (Rect.block (s := S65536x512) S512x512.size (cc0_transform_4 i) (hinb0_4 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x16x256 : Shape := ⟨3, ![65536, 16, 256]⟩
abbrev S256x256 : Shape := ⟨2, ![256, 256]⟩
abbrev S_ : Shape := ⟨0, ![]⟩
abbrev S65536x512 : Shape := ⟨2, ![65536, 512]⟩

abbrev nBuf : Space → Nat
  | .hbm => 15
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x16x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S65536x256, .f32⟩
  | .hbm, ⟨6, _⟩ => ⟨S_, .f32⟩
  | .hbm, ⟨7, _⟩ => ⟨S65536x256, .f32⟩
  | .hbm, ⟨8, _⟩ => ⟨S65536x256, .f32⟩
  | .hbm, ⟨9, _⟩ => ⟨S65536x256, .f32⟩
  | .hbm, ⟨10, _⟩ => ⟨S65536x256, .f32⟩
  | .hbm, ⟨11, _⟩ => ⟨S65536x512, .f32⟩
  | .hbm, ⟨12, _⟩ => ⟨S_, .f32⟩
  | .hbm, ⟨13, _⟩ => ⟨S65536x512, .f32⟩
  | .hbm, ⟨14, _⟩ => ⟨S65536x512, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩

abbrev nD : Nat := 1
abbrev τ : Topo := Topo.v7x

variable {F : FTy → Type} [FloatOps F]

class Facts₀ : Prop where
  reducesTo_S65536x16x256_S65536x256_d1 : S65536x16x256.ReducesTo [1] S65536x256
  h_S_ : 0 < S_.numel
  bcast_S_S65536x256 : S_.BroadcastsInDim S65536x256 (![] : Fin 0 → Fin S65536x256.rank)
  concatenates_S65536x256_S65536x256_S65536x512_d1 : Shape.Concatenates [S65536x256, S65536x256] S65536x512 1
  bcast_S_S65536x512 : S_.BroadcastsInDim S65536x512 (![] : Fin 0 → Fin S65536x512.rank)
  dot_S65536x256_S256x256_S65536x256_1_0_0_1_n_n_wf : DotDims.WF S65536x256 S256x256 S65536x256 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.Payload.lean ====
/-
  What the kernel body stores, read at an index.

  At one grid point the body holds a block of 512 nodes: their own rows `v0` (512 × 256), their neighbours' rows `v1`
  (512 × 16 × 256) and the two whole matrices. Into the left half of its output block it stores the rows times `w`,
  clamped at zero; into the right half the neighbours' rows summed over the neighbour axis, divided by 16, times `aw`,
  clamped at zero. Over the extended reals a matrix product into a zero accumulator at an entry is the sum over the 256
  contracted features of the operands' products, a sum along one axis is the sum over that axis's sixteen coordinates, and
  a change of float format is the identity — so entry `(p, q)` of either stored value is the layer's formula on the block.
-/
import proofs.«154945_j35914516529155_1_alg».proof.Proof.Gen.KernelIdeal.Skeleton
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.TcCoe Idealize.ShloMosaic.ValueIdx

/-! ## The block product's operand indices -/

theorem lhs_axis0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_axis1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_axis0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_axis1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- A 512 × 256 block times a 256 × 256 matrix into the zero accumulator, at entry `(p, q)`: the sum over the
    contracted feature `k` of the block's `(p, k)` times the matrix's `(k, q)`. -/
theorem block_product_apply {φ₁ φ₂ : FTy} (l : FVec Ideal S512x256 φ₁) (r : FVec Ideal S256x256 φ₂) (p : Fin 512) (q : Fin 256) :
    matmul dot_S512x256_S256x256_S512x256_1_0_0_1_n_n none l r (constant (F := Ideal) S512x256 .f32 0x00000000#32) (ix2 p q)
      = ∑ k : Fin 256, l (ix2 p k) * r (ix2 k q) := by
  simp only [matmul]
  rw [Ideal.matmul_constant_zero_apply, ← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx (ix2 p q) ((ValueIdx.contrEquiv1 dot_S512x256_S256x256_S512x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S512x256_S256x256_S512x256_1_0_0_1_n_n.rhsIdx (ix2 p q) ((ValueIdx.contrEquiv1 dot_S512x256_S256x256_S512x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-- The neighbour rows of a block summed along the neighbour axis, at entry `(p, k)`: the sum over the sixteen
    neighbours `j` of the block's `(p, j, k)`. -/
theorem neighbour_sum_apply (v1 : FVec Ideal S512x16x256 .f32) (p : Fin 512) (k : Fin 256) :
    multiReduction (F := Ideal) .add [1] S512x256 v1 0x00000000#32 reduces_S512x16x256_S512x256 (.inl rfl) rfl (ix2 p k)
      = ∑ j : Fin 16, v1 (ix3 p j k) := by
  refine (Ideal.multiReduction_add_single v1 0x00000000#32 reduces_S512x16x256_S512x256 (.inl rfl) rfl (ix2 p k)).trans ?_
  refine Finset.sum_congr rfl fun j _ => congrArg v1 ?_
  exact funext fun a => Fin.ext (by match a with | ⟨0, _⟩ => rfl | ⟨1, _⟩ => rfl | ⟨2, _⟩ => rfl)

/-! ## The two stored values -/

/-- The left half's stored value at entry `(p, q)`. -/
theorem self_payload_apply (v0 : Vec Ideal S512x256 .f32) (v7 : Vec Ideal S256x256 .f32) (p : Fin 512) (q : Fin 256) :
    k0_pay1 (F := Ideal) v0 v7 (ix2 p q)
      = max (∑ k : Fin 256, v0 (ix2 p k) * v7 (ix2 k q)) (Ideal.ofBits .f32 0x00000000#32) := by
  show max (matmul dot_S512x256_S256x256_S512x256_1_0_0_1_n_n none (truncf .bf16 v0 bitsLt_bf16_f32) (truncf .bf16 v7 bitsLt_bf16_f32)
      (constant (F := Ideal) S512x256 .f32 0x00000000#32) (ix2 p q)) (Ideal.ofBits .f32 0x00000000#32) = _
  rw [block_product_apply]
  rfl

/-- The right half's stored value at entry `(p, q)`. -/
theorem neighbour_payload_apply (v1 : Vec Ideal S512x16x256 .f32) (v9 : Vec Ideal S256x256 .f32) (p : Fin 512) (q : Fin 256) :
    k0_pay2 (F := Ideal) v1 v9 (ix2 p q)
      = max (∑ k : Fin 256, Ideal.div (∑ j : Fin 16, v1 (ix3 p j k)) (Ideal.ofBits .f32 0x41800000#32) * v9 (ix2 k q))
          (Ideal.ofBits .f32 0x00000000#32) := by
  show max (matmul dot_S512x256_S256x256_S512x256_1_0_0_1_n_n none
      (truncf .bf16 (divf (multiReduction (F := Ideal) .add [1] S512x256 v1 0x00000000#32 reduces_S512x16x256_S512x256 (.inl rfl) rfl)
        (broadcast S512x256 (Scalar.ofBits (F := Ideal) .f32 0x41800000#32))) bitsLt_bf16_f32)
      (truncf .bf16 v9 bitsLt_bf16_f32) (constant (F := Ideal) S512x256 .f32 0x00000000#32) (ix2 p q)) (Ideal.ofBits .f32 0x00000000#32) = _
  rw [block_product_apply]
  refine congrArg (fun s => max s (Ideal.ofBits .f32 0x00000000#32)) (Finset.sum_congr rfl fun k _ => ?_)
  exact congrArg (fun s => Ideal.div s (Ideal.ofBits .f32 0x41800000#32) * v9 (ix2 k q)) (neighbour_sum_apply v1 p k)

end Cert.KernelIdeal.Body

end
-- ==== Proof.Spec.lean ====
/-
  The layer both programs compute, as one function of the four argument arrays.

  A node `r` has a feature row `src r` (256 numbers) and sixteen sampled neighbours `nei r j`, each with a feature
  row of its own. The layer averages the neighbours' rows feature by feature (`neighMean`: their sum divided by 16),
  sends the node's own row through the matrix `w` and the averaged row through the matrix `aw` (`selfHidden`,
  `neighHidden`: row times matrix, a sum over the 256 features), lays the two results side by side — columns 0..255 the
  node's own, columns 256..511 the neighbours' — and clamps every entry below at zero (`layer`).

  The number of nodes `N` is a parameter: a node's output row depends on that node's rows alone, so the layer of a
  block of consecutive nodes is that block of the layer of all of them (`layer_of_rows`).

  Everything is over the extended reals; no law here needs a finite input: both programs form the same sums, the same
  quotient by the same constant, the same products and the same maximum, in the same order.
-/
import Idealize.ShloMosaic.PureOps.Ideal
import Idealize.ShloMosaic.Lib.ValueIdx

noncomputable section

namespace Cert.Sage

open Idealize.ShloMosaic Idealize.ShloMosaic.ValueIdx

variable {N : Nat}

/-- Feature `k` of node `r`'s averaged neighbour row: the sum over the sixteen neighbours of their feature `k`,
    divided by the constant 16 (kept as its binary word: both programs divide by the same word). -/
def neighMean (nei : (⟨3, ![N, 16, 256]⟩ : Shape).Idx → EReal) (r : Fin N) (k : Fin 256) : EReal :=
  Ideal.div (∑ j : Fin 16, nei (ix3 r j k)) (Ideal.ofBits .f32 0x41800000#32)

/-- Entry `(r, c)` of the node's own row times `w`. -/
def selfHidden (src : (⟨2, ![N, 256]⟩ : Shape).Idx → EReal) (w : (⟨2, ![256, 256]⟩ : Shape).Idx → EReal)
    (r : Fin N) (c : Fin 256) : EReal :=
  ∑ k : Fin 256, src (ix2 r k) * w (ix2 k c)

/-- Entry `(r, c)` of the averaged neighbour row times `aw`. -/
def neighHidden (nei : (⟨3, ![N, 16, 256]⟩ : Shape).Idx → EReal) (aw : (⟨2, ![256, 256]⟩ : Shape).Idx → EReal)
    (r : Fin N) (c : Fin 256) : EReal :=
  ∑ k : Fin 256, neighMean nei r k * aw (ix2 k c)

/-- The layer's output: columns below 256 hold the node's own transform, the columns from 256 on the neighbours',
    each clamped below at zero (the zero kept as its binary word). -/
def layer (src : (⟨2, ![N, 256]⟩ : Shape).Idx → EReal) (nei : (⟨3, ![N, 16, 256]⟩ : Shape).Idx → EReal)
    (w aw : (⟨2, ![256, 256]⟩ : Shape).Idx → EReal) : (⟨2, ![N, 512]⟩ : Shape).Idx → EReal := fun i =>
  if h : (i 1).val < 256 then
    max (selfHidden src w (i 0) ⟨(i 1).val, h⟩) (Ideal.ofBits .f32 0x00000000#32)
  else
    max (neighHidden nei aw (i 0) ⟨(i 1).val - 256, by have := idx2_lt1 i; omega⟩) (Ideal.ofBits .f32 0x00000000#32)

/-- The layer at a column of the first half. -/
theorem layer_left (src : (⟨2, ![N, 256]⟩ : Shape).Idx → EReal) (nei : (⟨3, ![N, 16, 256]⟩ : Shape).Idx → EReal)
    (w aw : (⟨2, ![256, 256]⟩ : Shape).Idx → EReal) (i : (⟨2, ![N, 512]⟩ : Shape).Idx) (r : Fin N) (c : Fin 256)
    (hr : (i 0).val = r.val) (hc : (i 1).val = c.val) :
    layer src nei w aw i = max (selfHidden src w r c) (Ideal.ofBits .f32 0x00000000#32) := by
  have h : (i 1).val < 256 := by have := c.isLt; omega
  unfold layer
  rw [dif_pos h]
  have e0 : i 0 = r := Fin.ext hr
  have e1 : (⟨(i 1).val, h⟩ : Fin 256) = c := Fin.ext hc
  rw [e0, e1]

/-- The layer at a column of the second half. -/
theorem layer_right (src : (⟨2, ![N, 256]⟩ : Shape).Idx → EReal) (nei : (⟨3, ![N, 16, 256]⟩ : Shape).Idx → EReal)
    (w aw : (⟨2, ![256, 256]⟩ : Shape).Idx → EReal) (i : (⟨2, ![N, 512]⟩ : Shape).Idx) (r : Fin N) (c : Fin 256)
    (hr : (i 0).val = r.val) (hc : (i 1).val = c.val + 256) :
    layer src nei w aw i = max (neighHidden nei aw r c) (Ideal.ofBits .f32 0x00000000#32) := by
  have h : ¬ (i 1).val < 256 := by omega
  unfold layer
  rw [dif_neg h]
  have e0 : i 0 = r := Fin.ext hr
  have e1 : (⟨(i 1).val - 256, by have := idx2_lt1 i; omega⟩ : Fin 256) = c := Fin.ext (by show (i 1).val - 256 = c.val; omega)
  rw [e0, e1]

/-- A node's output row is a function of that node's own rows and of the two matrices: if the rows of `src'`, `nei'`
    at node `r'` are the rows of `src`, `nei` at node `r`, and the matrices agree entry by entry, the layers agree along
    those two output rows, column by column. -/
theorem layer_of_rows {N' : Nat} (src : (⟨2, ![N, 256]⟩ : Shape).Idx → EReal) (nei : (⟨3, ![N, 16, 256]⟩ : Shape).Idx → EReal)
    (src' : (⟨2, ![N', 256]⟩ : Shape).Idx → EReal) (nei' : (⟨3, ![N', 16, 256]⟩ : Shape).Idx → EReal)
    (w aw w' aw' : (⟨2, ![256, 256]⟩ : Shape).Idx → EReal) (r : Fin N) (r' : Fin N')
    (hsrc : ∀ k : Fin 256, src' (ix2 r' k) = src (ix2 r k))
    (hnei : ∀ (j : Fin 16) (k : Fin 256), nei' (ix3 r' j k) = nei (ix3 r j k))
    (hw : ∀ k c : Fin 256, w' (ix2 k c) = w (ix2 k c)) (haw : ∀ k c : Fin 256, aw' (ix2 k c) = aw (ix2 k c))
    (i : (⟨2, ![N, 512]⟩ : Shape).Idx) (i' : (⟨2, ![N', 512]⟩ : Shape).Idx)
    (hi : (i 0).val = r.val) (hi' : (i' 0).val = r'.val) (hcol : (i' 1).val = (i 1).val) :
    layer src' nei' w' aw' i' = layer src nei w aw i := by
  have hlt : (i 1).val < 512 := idx2_lt1 i
  by_cases h : (i 1).val < 256
  · rw [layer_left src nei w aw i r ⟨(i 1).val, h⟩ hi rfl,
      layer_left src' nei' w' aw' i' r' ⟨(i 1).val, h⟩ hi' hcol]
    unfold selfHidden
    exact congrArg (fun s => max s _) (Finset.sum_congr rfl fun k _ => by rw [hsrc k, hw k])
  · have h2 : (i 1).val - 256 < 256 := by omega
    rw [layer_right src nei w aw i r ⟨(i 1).val - 256, h2⟩ hi (by show (i 1).val = (i 1).val - 256 + 256; omega),
      layer_right src' nei' w' aw' i' r' ⟨(i 1).val - 256, h2⟩ hi' (by show (i' 1).val = (i 1).val - 256 + 256; omega)]
    unfold neighHidden neighMean
    refine congrArg (fun s => max s _) (Finset.sum_congr rfl fun k _ => ?_)
    rw [Finset.sum_congr rfl fun j _ => hnei j k, haw k]

end Cert.Sage

end
-- ==== Proof.Blocks.lean ====
/-
  From the grid points' blocks to the whole output array.

  The grid has 128 points. Point `t` stages nodes `512 t … 512 t + 511`: their own rows, their neighbours' rows and
  both matrices whole, and writes back rows `512 t … 512 t + 511` of the output, all 512 columns. What the body leaves in
  its output block is the layer of the staged blocks (`body_eq`: the two stores tile the block, the left half the nodes'
  own transform, the right half the neighbours'); a node's output row depends on that node's rows alone, so this is block
  `t` of the layer of the whole arrays (`flushed_eq`); the 128 blocks cover every row (`cover`: row `r` lies in the
  block of point `r / 512`), so the array ends holding the layer of the arguments (`final`, `run`).
-/
import proofs.«154945_j35914516529155_1_alg».proof.Proof.Gen.KernelIdeal.Value
import proofs.«154945_j35914516529155_1_alg».proof.Proof.Payload
import proofs.«154945_j35914516529155_1_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The body's output block is the layer of its input blocks -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The two stores tile the 512 × 512 output block: columns 256..511 hold the neighbours' transform of the staged
    rows, columns 0..255 the nodes' own. -/
theorem body_eq (x0 : Vec Ideal S512x256 .f32) (x1 : Vec Ideal S512x16x256 .f32) (x2 x3 : Vec Ideal S256x256 .f32) :
    out0_4 x0 x1 x2 x3 = Cert.Sage.layer (N := 512) x0 x1 x2 x3 := by
  unfold out0_4
  simp only [View.ld_unit_zero (S := S512x256) zeros2, View.ld_unit_zero (S := S512x16x256) zeros3,
    View.ld_unit_zero (S := S256x256) zeros2]
  funext y
  refine View.canon_apply_of_pieces (Val := Elt Ideal) (S := S512x512) (e := .f32)
    (Cert.Sage.layer (N := 512) x0 x1 x2 x3) _ ?_ y (cover0_4 _ _ y)
  intro pc hpc x
  rcases List.mem_cons.mp hpc with rfl | hpc
  · obtain ⟨p, q, rfl⟩ : ∃ (p : Fin 512) (q : Fin 256), x = ix2 p q := ⟨x 0, x 1, eq_ix2 x⟩
    refine (Cert.KernelIdeal.Body.neighbour_payload_apply x1 x3 p q).trans ?_
    refine (Cert.Sage.layer_right (N := 512) x0 x1 x2 x3 (r0_4.emb (ix2 p q)) p q ?_ ?_).symm
    · show 0 + 1 * p.val = p.val; omega
    · show 256 + 1 * q.val = q.val + 256; omega
  · obtain rfl := List.mem_singleton.mp hpc
    obtain ⟨p, q, rfl⟩ : ∃ (p : Fin 512) (q : Fin 256), x = ix2 p q := ⟨x 0, x 1, eq_ix2 x⟩
    refine (Cert.KernelIdeal.Body.self_payload_apply x0 x2 p q).trans ?_
    refine (Cert.Sage.layer_left (N := 512) x0 x1 x2 x3 (r0_3.emb (ix2 p q)) p q ?_ ?_).symm
    · show 0 + 1 * p.val = p.val; omega
    · show 0 + 1 * q.val = q.val; omega

/-! ## Where each window's block lies -/

/-- The index maps over the grid: the node windows and the output window sit at block row `t`, the matrices at
    block zero; there are 128 points. -/
theorem idx_facts : ∀ t : Fin cfg0.N, t.val < 128
    ∧ win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every block row of the output is some point's. -/
theorem idx_onto : ∀ q : Fin 128, ∃ t : Fin cfg0.N, win0_4.index t (0 : Fin 2) = q.val ∧ win0_4.index t (1 : Fin 2) = 0 :=
  (by decide +kernel : ∀ q : Fin 128, ∃ t : Fin grid0.N, win0_4.index t (0 : Fin 2) = q.val ∧ win0_4.index t (1 : Fin 2) = 0)

/-- WHAT POINT `t` WRITES BACK is block `t` of the layer of the argument arrays as the region finds them. -/
theorem flushed_eq (c : Dev nD) (t : Fin cfg0.N) :
    (dats m 0 c).flushed 4 t = ((cfg0.win 4).blk t).view.read (Elt Ideal)
      (Cert.Sage.layer (N := 65536) (V m c main_arg0) (V m c main_arg1) (V m c main_arg2) (V m c main_arg3)) := by
  funext y
  rw [Value.flushed4]
  show out0_4 (iblk m c 0 t) (iblk m c 1 t) (iblk m c 2 t) (iblk m c 3 t) y
    = Cert.Sage.layer (N := 65536) (V m c main_arg0) (V m c main_arg1) (V m c main_arg2) (V m c main_arg3) (((cfg0.win 4).blk t).view.emb y)
  refine (congrFun (body_eq (iblk m c 0 t) (iblk m c 1 t) (iblk m c 2 t) (iblk m c 3 t)) y).trans ?_
  obtain ⟨ht, e00, e01, e10, e11, e12, e20, e21, e30, e31, e40, e41⟩ := idx_facts t
  have hy0 : (y 0).val < 512 := idx2_lt0 (n0 := 512) (n1 := 512) y
  refine Cert.Sage.layer_of_rows (N := 65536) (N' := 512) (V m c main_arg0) (V m c main_arg1) (iblk m c 0 t) (iblk m c 1 t)
    (V m c main_arg2) (V m c main_arg3) (iblk m c 2 t) (iblk m c 3 t) ⟨t.val * 512 + (y 0).val, by omega⟩ (y 0)
    (fun k => ?_) (fun j k => ?_) (fun k q => ?_) (fun k q => ?_) (((cfg0.win 4).blk t).view.emb y) y ?_ rfl ?_
  · show V m c main_arg0 (((cfg0.win 0).blk t).view.emb (ix2 (y 0) k)) = V m c main_arg0 (ix2 ⟨t.val * 512 + (y 0).val, by omega⟩ k)
    refine congrArg (V m c main_arg0) (funext fun a => Fin.ext ?_)
    match a with
    | ⟨0, _⟩ => show win0_0.index t (0 : Fin 2) * 512 + 1 * (y 0).val = t.val * 512 + (y 0).val; omega
    | ⟨1, _⟩ => show win0_0.index t (1 : Fin 2) * 256 + 1 * k.val = k.val; omega
  · show V m c main_arg1 (((cfg0.win 1).blk t).view.emb (ix3 (y 0) j k)) = V m c main_arg1 (ix3 ⟨t.val * 512 + (y 0).val, by omega⟩ j k)
    refine congrArg (V m c main_arg1) (funext fun a => Fin.ext ?_)
    match a with
    | ⟨0, _⟩ => show win0_1.index t (0 : Fin 3) * 512 + 1 * (y 0).val = t.val * 512 + (y 0).val; omega
    | ⟨1, _⟩ => show win0_1.index t (1 : Fin 3) * 16 + 1 * j.val = j.val; omega
    | ⟨2, _⟩ => show win0_1.index t (2 : Fin 3) * 256 + 1 * k.val = k.val; omega
  · show V m c main_arg2 (((cfg0.win 2).blk t).view.emb (ix2 k q)) = V m c main_arg2 (ix2 k q)
    refine congrArg (V m c main_arg2) (funext fun a => Fin.ext ?_)
    match a with
    | ⟨0, _⟩ => show win0_2.index t (0 : Fin 2) * 256 + 1 * k.val = k.val; omega
    | ⟨1, _⟩ => show win0_2.index t (1 : Fin 2) * 256 + 1 * q.val = q.val; omega
  · show V m c main_arg3 (((cfg0.win 3).blk t).view.emb (ix2 k q)) = V m c main_arg3 (ix2 k q)
    refine congrArg (V m c main_arg3) (funext fun a => Fin.ext ?_)
    match a with
    | ⟨0, _⟩ => show win0_3.index t (0 : Fin 2) * 256 + 1 * k.val = k.val; omega
    | ⟨1, _⟩ => show win0_3.index t (1 : Fin 2) * 256 + 1 * q.val = q.val; omega
  · show win0_4.index t (0 : Fin 2) * 512 + 1 * (y 0).val = t.val * 512 + (y 0).val; omega
  · show (y 1).val = win0_4.index t (1 : Fin 2) * 512 + 1 * (y 1).val; omega

/-! ## The blocks cover the array -/

/-- An index of the output array is in point `t`'s block iff each coordinate is in the block's range on its axis. -/
theorem mem_blk (t : Fin cfg0.N) (i : S65536x512.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v0).slice (win0_4.rect t)).set ↔ _
  rw [View.set_slice_whole, Rect.mem_set_unit]
  exact Iff.rfl

/-- Every output index lies in the block of the point its row's quotient by 512 names. -/
theorem cover (i : S65536x512.Idx) : ∃ t : Fin cfg0.N, (cfg0.win 4).flush t = true ∧ i ∈ ((cfg0.win 4).blk t).view.set := by
  have hi0 : (i 0).val < 65536 := idx2_lt0 (n0 := 65536) (n1 := 512) i
  have hi1 : (i 1).val < 512 := idx2_lt1 (n0 := 65536) (n1 := 512) i
  obtain ⟨t, q0, q1⟩ := idx_onto ⟨(i 0).val / 512, by omega⟩
  have q0' : win0_4.index t (0 : Fin 2) = (i 0).val / 512 := q0
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-! ## The array after the run, and the run -/

/-- THE ARRAY after the run: the layer of the argument arrays. -/
theorem final (c : Dev nD) : (dats m 0 c).arrAt 4 cfg0.N
    = Cert.Sage.layer (N := 65536) (m ((c : Thread nD τ).loc main_arg0)) (m ((c : Thread nD τ).loc main_arg1))
        (m ((c : Thread nD τ).loc main_arg2)) (m ((c : Thread nD τ).loc main_arg3)) :=
  (dats m 0 c).arrAt_eq_of_cover 4
    (Cert.Sage.layer (N := 65536) (V m c main_arg0) (V m c main_arg1) (V m c main_arg2) (V m c main_arg3))
    (fun t _ => flushed_eq m c t) cover

/-- The kernel's run: the result array ends at the layer of the arguments, the arguments unchanged. -/
theorem run : θ_run defs (onTc (τ := τ) (main (F := Ideal))) ⟨m, fun _ => 0, ρ⟩ fun r => ∀ c : Dev nD,
      r.2.mem ((c : Thread nD τ).loc main_v0)
        = Cert.Sage.layer (N := 65536) (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefIsLayer.lean ====
/-
  The reference's result, read stage by stage, is the layer.

  The reference sums the neighbours' rows (a host sum from the initial value zero), divides by 16, multiplies the averaged
  rows by `aw` and the nodes' own rows by `w`, joins the two products along the columns and takes the maximum with
  zero. At an index whose column lies below 256 the joined array reads the first product, from 256 on the second, 256
  columns further left; each product at an index is the sum over the 256 features; the host sum's initial value is the real
  zero and drops out.
-/
import proofs.«154945_j35914516529155_1_alg».proof.Proof.Gen.ReferenceIdeal.Read
import proofs.«154945_j35914516529155_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The averaged neighbour rows at an index: the quotient of the sixteen neighbours' sum by the constant. -/
theorem mean_apply (x1 : (⟨S65536x16x256, .f32⟩ : BufTy).Contents (Elt Ideal)) (r : Fin 65536) (k : Fin 256) :
    val_main_v2 (F := Ideal) x1 (ix2 r k) = Cert.Sage.neighMean x1 r k := by
  rw [val_main_v2_apply, val_main_v0_apply, val_main_v1_apply, val_main_cst_0_apply, val_main_cst_apply]
  unfold Cert.Sage.neighMean
  simp only [Ideal.hostDivf_def, Ideal.ofBits_def, Ideal.ofBits_zero_f32, zero_add]
  refine congrArg (fun s => Ideal.div s _) (Finset.sum_congr rfl fun j _ => congrArg x1 ?_)
  exact funext fun a => Fin.ext (by match a with | ⟨0, _⟩ => rfl | ⟨1, _⟩ => rfl | ⟨2, _⟩ => rfl)

/-- The nodes' own product at an index. -/
theorem self_apply (x0 : (⟨S65536x256, .f32⟩ : BufTy).Contents (Elt Ideal)) (x2 : (⟨S256x256, .f32⟩ : BufTy).Contents (Elt Ideal))
    (r : Fin 65536) (c : Fin 256) :
    val_main_v4 (F := Ideal) x0 x2 (ix2 r c) = Cert.Sage.selfHidden x0 x2 r c := by
  rw [val_main_v4_apply]
  unfold Cert.Sage.selfHidden
  refine Finset.sum_congr rfl fun k _ => ?_
  have el : lidx_main_v4 (ix2 r c) k = ix2 r k :=
    funext fun a => Fin.ext (by match a with | ⟨0, _⟩ => rfl | ⟨1, _⟩ => rfl)
  have er : ridx_main_v4 (ix2 r c) k = ix2 k c :=
    funext fun a => Fin.ext (by match a with | ⟨0, _⟩ => rfl | ⟨1, _⟩ => rfl)
  rw [el, er]

/-- The averaged neighbours' product at an index. -/
theorem neigh_apply (x1 : (⟨S65536x16x256, .f32⟩ : BufTy).Contents (Elt Ideal)) (x3 : (⟨S256x256, .f32⟩ : BufTy).Contents (Elt Ideal))
    (r : Fin 65536) (c : Fin 256) :
    val_main_v3 (F := Ideal) x1 x3 (ix2 r c) = Cert.Sage.neighHidden x1 x3 r c := by
  rw [val_main_v3_apply]
  unfold Cert.Sage.neighHidden
  refine Finset.sum_congr rfl fun k _ => ?_
  have el : lidx_main_v3 (ix2 r c) k = ix2 r k :=
    funext fun a => Fin.ext (by match a with | ⟨0, _⟩ => rfl | ⟨1, _⟩ => rfl)
  have er : ridx_main_v3 (ix2 r c) k = ix2 k c :=
    funext fun a => Fin.ext (by match a with | ⟨0, _⟩ => rfl | ⟨1, _⟩ => rfl)
  rw [el, er, mean_apply]

/-- The zero the reference clamps at, at an index. -/
theorem zero_apply (i : S65536x512.Idx) :
    val_main_call0_v0 (F := Ideal) i = Ideal.ofBits .f32 0x00000000#32 := by
  rw [val_main_call0_v0_apply, val_main_call0_cst_apply]; rfl

/-- The reference's last stage is the layer of its arguments. -/
theorem result_eq (x0 : (⟨S65536x256, .f32⟩ : BufTy).Contents (Elt Ideal)) (x1 : (⟨S65536x16x256, .f32⟩ : BufTy).Contents (Elt Ideal))
    (x2 x3 : (⟨S256x256, .f32⟩ : BufTy).Contents (Elt Ideal)) :
    val_main_v6 (F := Ideal) x0 x1 x2 x3 = Cert.Sage.layer x0 x1 x2 x3 := by
  funext i
  rw [val_main_v6_apply, zero_apply]
  show max (val_main_v5 (F := Ideal) x0 x1 x2 x3 i) _ = _
  unfold val_main_v5
  have hi1 : (i 1).val < 512 := idx2_lt1 i
  by_cases h : (i 1).val < 256
  · rw [Cert.Sage.layer_left x0 x1 x2 x3 i (i 0) ⟨(i 1).val, h⟩ rfl rfl]
    rw [concatenate_pair_apply_left (t := S65536x512) (s₁ := S65536x256) (s₂ := S65536x256) (1 : Fin 2) _ _
      concatenates_S65536x256_S65536x256_S65536x512_d1 i rfl
      (ix2 (i 0) ⟨(i 1).val, h⟩) (fun b => by match b with | ⟨0, _⟩ => rfl | ⟨1, _⟩ => rfl)]
    exact congrArg (fun s => max s (Ideal.ofBits .f32 0x00000000#32)) (self_apply x0 x2 (i 0) ⟨(i 1).val, h⟩)
  · have h2 : (i 1).val - 256 < 256 := by omega
    rw [Cert.Sage.layer_right x0 x1 x2 x3 i (i 0) ⟨(i 1).val - 256, h2⟩ rfl (by show (i 1).val = (i 1).val - 256 + 256; omega)]
    rw [concatenate_pair_apply_right (t := S65536x512) (s₁ := S65536x256) (s₂ := S65536x256) (1 : Fin 2) _ _
      concatenates_S65536x256_S65536x256_S65536x512_d1 i rfl rfl
      (ix2 (i 0) ⟨(i 1).val - 256, h2⟩)
      (fun b hb => by match b, hb with | ⟨0, _⟩, _ => rfl | ⟨1, _⟩, hb => exact absurd rfl hb)
      (by show (i 1).val - 256 + 256 = (i 1).val; omega)]
    exact congrArg (fun s => max s (Ideal.ofBits .f32 0x00000000#32)) (neigh_apply x1 x3 (i 0) ⟨(i 1).val - 256, h2⟩)

end Cert.ReferenceIdeal.RefValue

end
-- ==== Proof.lean ====
/-
  A GraphSAGE layer — mean of sixteen sampled neighbours, two linear maps, the two results side by side, a clamp at
  zero — computed by a kernel that walks the 65536 nodes in 128 blocks of 512, against the same layer written with whole
  arrays.

  Over the extended reals both programs are one function of the four arguments (Proof/Spec.lean, `Cert.Sage.layer`):
  entry `(r, c)` is `max (∑ₖ src r k · w k c) 0` for a column `c` below 256 and
  `max (∑ₖ ((∑ⱼ nei r j k) / 16) · aw k (c − 256)) 0` from column 256 on. The kernel narrows its matrix operands to a
  shorter float format before multiplying, which is the identity on the extended reals; its products accumulate into a zero
  block and the whole-array products have no accumulator, the same sums; both divide by the same constant. No law used
  needs a finite input, so the precondition is never opened.

  The kernel's side: what the body stores at one grid point, entry by entry (Proof/Payload.lean); that the block it
  leaves is the layer of the staged blocks, which is that block of the layer of the whole arrays, and that the 128 blocks
  cover the output (Proof/Blocks.lean). The whole-array side, stage by stage: Proof/RefIsLayer.lean. The three runs'
  termination and the unchanged arguments come from the programs' run theorems; the kernel's idealization rewrote nothing.
-/
import proofs.«154945_j35914516529155_1_alg».proof.Defs
import proofs.«154945_j35914516529155_1_alg».proof.Proof.Gen.Kernel
import proofs.«154945_j35914516529155_1_alg».proof.Proof.Gen.Kernel.Skeleton
import proofs.«154945_j35914516529155_1_alg».proof.Proof.Gen.Kernel.Launch
import proofs.«154945_j35914516529155_1_alg».proof.Proof.Gen.Kernel.Points
import proofs.«154945_j35914516529155_1_alg».proof.Proof.Gen.Kernel.Frame
import proofs.«154945_j35914516529155_1_alg».proof.Proof.Gen.KernelIdeal
import proofs.«154945_j35914516529155_1_alg».proof.Proof.Gen.KernelIdeal.Skeleton
import proofs.«154945_j35914516529155_1_alg».proof.Proof.Gen.KernelIdeal.Launch
import proofs.«154945_j35914516529155_1_alg».proof.Proof.Gen.KernelIdeal.Points
import proofs.«154945_j35914516529155_1_alg».proof.Proof.Gen.KernelIdeal.Frame
import proofs.«154945_j35914516529155_1_alg».proof.Proof.Gen.ReferenceIdeal
import proofs.«154945_j35914516529155_1_alg».proof.Proof.Gen.Pre_finite_inputs
import proofs.«154945_j35914516529155_1_alg».proof.Proof.Gen.KernelIdeal.Value
import proofs.«154945_j35914516529155_1_alg».proof.Proof.Gen.ReferenceIdeal.Run
import proofs.«154945_j35914516529155_1_alg».proof.Proof.Gen.ReferenceIdeal.Read
import proofs.«154945_j35914516529155_1_alg».proof.Proof.Blocks
import proofs.«154945_j35914516529155_1_alg».proof.Proof.RefIsLayer
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the whole-array program: its run, with the result's value dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel: nothing to restate. -/
theorem preserves : Cert.preserves_Kernel_KernelIdeal := trivial

/-- From memories that agree on the four arguments both programs end with the layer of those arguments in their result
    array: the kernel block by block, the whole-array program stage by stage. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
